-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 66
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x40, .f32⟩
  | .hbm, ⟨65, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x40, .f32⟩
  | .local _ .vmem, ⟨31, _⟩ => ⟨S1x40, .f32⟩
  | .local _ .vmem, ⟨32, _⟩ => ⟨S5000x40, .f32⟩
  | .local _ .vmem, ⟨33, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x40, .f32⟩
  | .hbm, ⟨80, _⟩ => ⟨S1x40, .f32⟩
  | .hbm, ⟨81, _⟩ => ⟨S100000x40, .f32⟩
  | .hbm, ⟨82, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The mathematics of one graph-convolution network layer by layer, as whole-array functions over the extended reals,
  index by index. Nodes are rows: n ranges over 100000 nodes, features over 128 columns, classes over 40.

  * `scaleLinear x s w`     : out[n, j] = Σ_k (x[n, k] · s[n]) · w[k, j]    (rows scaled by a per-node factor, then a linear map)
  * `scaleBias a s b`       : out[n, j] = a[n, j] · s[n] + b[j]              (aggregated rows scaled by a per-node factor, plus a bias row)
  * `scaleBiasRelu a s b`   : out[n, j] = max (a[n, j] · s[n] + b[j]) 0
  * `linearBias h w b`      : out[n, j] = (Σ_k h[n, k] · w[k, j]) + b[j]     (the final classifier)

  The per-node factor is kept as a column [n, 1] and the bias as a row [1, j], the layouts both programs hand them in.
  No law of the extended reals is used anywhere: the two programs compute these very sums and products in this order.
-/
import Idealize.ShloMosaic.PureOps.Ideal
import Idealize.ShloMosaic.Lib.ValueIdx

noncomputable section

open scoped BigOperators

namespace Cert.Gnn

open Idealize.ShloMosaic Idealize.ShloMosaic.ValueIdx

abbrev SNxH : Shape := ⟨2, ![100000, 128]⟩
abbrev SNx1 : Shape := ⟨2, ![100000, 1]⟩
abbrev SHxH : Shape := ⟨2, ![128, 128]⟩
abbrev S1xH : Shape := ⟨2, ![1, 128]⟩
abbrev SHxC : Shape := ⟨2, ![128, 40]⟩
abbrev S1xC : Shape := ⟨2, ![1, 40]⟩
abbrev SNxC : Shape := ⟨2, ![100000, 40]⟩

/-- The float zero both programs take the maximum against (kept as its word: it is the same word on both sides). -/
abbrev zeroWord : EReal := Ideal.ofBits .f32 0x00000000#32

/-- Rows scaled by a per-node factor, then a linear map: `out[n, j] = Σ_k (x[n, k] · s[n]) · w[k, j]`. -/
def scaleLinear (x : SNxH.Idx → EReal) (s : SNx1.Idx → EReal) (w : SHxH.Idx → EReal) : SNxH.Idx → EReal :=
  fun i => ∑ k : Fin 128, (x (ix2 (i 0) k) * s (ix2 (i 0) 0)) * w (ix2 k (i 1))

/-- Rows scaled by a per-node factor, plus a bias row: `out[n, j] = a[n, j] · s[n] + b[j]`. -/
def scaleBias (a : SNxH.Idx → EReal) (s : SNx1.Idx → EReal) (b : S1xH.Idx → EReal) : SNxH.Idx → EReal :=
  fun i => a i * s (ix2 (i 0) 0) + b (ix2 0 (i 1))

/-- The same followed by the rectifier: `out[n, j] = max (a[n, j] · s[n] + b[j]) 0`. -/
def scaleBiasRelu (a : SNxH.Idx → EReal) (s : SNx1.Idx → EReal) (b : S1xH.Idx → EReal) : SNxH.Idx → EReal :=
  fun i => max (a i * s (ix2 (i 0) 0) + b (ix2 0 (i 1))) zeroWord

/-- The classifier: `out[n, j] = (Σ_k h[n, k] · w[k, j]) + b[j]`. -/
def linearBias (h : SNxH.Idx → EReal) (w : SHxC.Idx → EReal) (b : S1xC.Idx → EReal) : SNxC.Idx → EReal :=
  fun i => (∑ k : Fin 128, h (ix2 (i 0) k) * w (ix2 k (i 1))) + b (ix2 0 (i 1))

end Cert.Gnn

end
-- ==== Proof.Payloads.lean ====
/-
  What each of the five kernel bodies computes on one block of 5000 rows, read at an entry (r, j) of the block, over the
  extended reals. A change of float format is the identity there, and a matrix product into a zero accumulator is the
  plain sum over the contracted axis of the products, so:

  * bodies 0 and 2 (scale, then multiply by a 128 × 128 matrix):  Σ_k (x[r, k] · s[r]) · w[k, j]
  * body 1 (scale, add the bias row, rectify):                     max (a[r, j] · s[r] + b[j]) 0
  * body 3 (scale, add the bias row):                              a[r, j] · s[r] + b[j]
  * body 4 (multiply by a 128 × 40 matrix, add the bias row):      (Σ_k h[r, k] · w[k, j]) + b[j]

  The per-row factor arrives as a column [5000, 1] broadcast along the columns, the bias as a row [1, ·] broadcast
  along the rows.
-/
import proofs.«152073_j87892210745352_1_alg».proof.Proof.Gen.KernelIdeal.Skeleton
import proofs.«152073_j87892210745352_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen
open Idealize.ShloMosaic Idealize.ShloMosaic.ValueIdx

/-! ## The two matrix products at an entry -/

/-- The 128 × 128 product's dimension record. -/
abbrev D128 := dot_S5000x128_S128x128_S5000x128_1_0_0_1_n_n
/-- The 128 × 40 product's dimension record. -/
abbrev D40 := dot_S5000x128_S128x40_S5000x40_1_0_0_1_n_n

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into the zero accumulator, at entry (r, j): the sum over k of l[r,k] · w[k,j]. -/
theorem matmul128_apply {φ₁ φ₂ : FTy} (l : FVec Ideal S5000x128 φ₁) (w : FVec Ideal S128x128 φ₂) (r : Fin 5000) (j : Fin 128) :
    matmul dot_S5000x128_S128x128_S5000x128_1_0_0_1_n_n none l w (constant S5000x128 .f32 0x00000000#32) (ix2 r j)
      = ∑ k : Fin 128, l (ix2 r k) * w (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs128_0 _ _).trans hk
    | ⟨1, _⟩ => exact rhs128_1 _ _)
  rw [el, er]

theorem lhs40_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs40_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs40_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs40_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A [5000,128] × [128,40] product into the zero accumulator, at entry (r, j): the sum over k of l[r,k] · w[k,j]. -/
theorem matmul40_apply {φ₁ φ₂ : FTy} (l : FVec Ideal S5000x128 φ₁) (w : FVec Ideal S128x40 φ₂) (r : Fin 5000) (j : Fin 40) :
    matmul dot_S5000x128_S128x40_S5000x40_1_0_0_1_n_n none l w (constant S5000x40 .f32 0x00000000#32) (ix2 r j)
      = ∑ k : Fin 128, l (ix2 r k) * w (ix2 k j) := by
  simp only [matmul]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 r j) ((ValueIdx.contrEquiv1 dot_S5000x128_S128x40_S5000x40_1_0_0_1_n_n 128 rfl rfl).symm k) = ix2 r k := funext fun a => Fin.ext (by
    match a with
    | ⟨0, _⟩ => exact lhs40_0 _ _
    | ⟨1, _⟩ => exact (lhs40_1 _ _).trans hk)
  have er : dot_S5000x128_S128x40_S5000x40_1_0_0_1_n_n.rhsIdx (ix2 r j) ((ValueIdx.contrEquiv1 dot_S5000x128_S128x40_S5000x40_1_0_0_1_n_n 128 rfl rfl).symm k) = ix2 k j := funext fun a => Fin.ext (by
    match a with
    | ⟨0, _⟩ => exact (rhs40_0 _ _).trans hk
    | ⟨1, _⟩ => exact rhs40_1 _ _)
  rw [el, er]

/-! ## The broadcasts at an entry -/

/-- A column [5000,1] broadcast along 128 columns reads its row's entry. -/
theorem colBcast_apply {α : Type} (v : S5000x1.Idx → α) (h : S5000x1.Broadcasts S5000x128) (r : Fin 5000) (j : Fin 128) :
    broadcastTo S5000x128 v h (ix2 r j) = v (ix2 r 0) :=
  broadcastTo_apply v h (ix2 r j) (ix2 r 0) (fun a => match a with
    | ⟨0, _⟩ => by show r.val = if (5000 : Nat) = 1 then 0 else r.val; rw [if_neg (by decide)]
    | ⟨1, _⟩ => by show 0 = if (1 : Nat) = 1 then 0 else j.val; rw [if_pos rfl])

/-- A row [1,128] broadcast along 5000 rows reads its column's entry. -/
theorem rowBcast128_apply {α : Type} (v : S1x128.Idx → α) (h : S1x128.Broadcasts S5000x128) (r : Fin 5000) (j : Fin 128) :
    broadcastTo S5000x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A row [1,40] broadcast along 5000 rows reads its column's entry. -/
theorem rowBcast40_apply {α : Type} (v : S1x40.Idx → α) (h : S1x40.Broadcasts S5000x40) (r : Fin 5000) (j : Fin 40) :
    broadcastTo S5000x40 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (40 : Nat) = 1 then 0 else j.val; rw [if_neg (by decide)])

/-! ## The five bodies at an entry -/

/-- Body 0: the block's rows scaled by their factors, times the 128 × 128 matrix. -/
theorem pay0_apply (x : Vec Ideal S5000x128 .f32) (s : Vec Ideal S5000x1 .f32) (w : Vec Ideal S128x128 .f32) (r : Fin 5000) (j : Fin 128) :
    k0_pay1 (F := Ideal) x s w (ix2 r j) = ∑ k : Fin 128, (x (ix2 r k) * s (ix2 r 0)) * w (ix2 k j) := by
  unfold k0_pay1
  refine (matmul128_apply _ _ r j).trans ?_
  refine Finset.sum_congr rfl fun k _ => ?_
  rw [truncf_apply, truncf_apply, mulf_apply, colBcast_apply, shapeCast_self]

/-- Body 1: the block's entries scaled by their rows' factors, plus the bias row, rectified. -/
theorem pay1_apply (a : Vec Ideal S5000x128 .f32) (s : Vec Ideal S5000x1 .f32) (b : Vec Ideal S1x128 .f32) (r : Fin 5000) (j : Fin 128) :
    k1_pay1 (F := Ideal) a s b (ix2 r j) = max (a (ix2 r j) * s (ix2 r 0) + b (ix2 0 j)) Cert.Gnn.zeroWord := by
  unfold k1_pay1
  rw [maximumf_apply, addf_apply, mulf_apply, broadcast_apply, colBcast_apply, rowBcast128_apply, shapeCast_self, shapeCast_self, shapeCast_self]
  rfl

/-- Body 2: the block's rows scaled by their factors, times the 128 × 128 matrix. -/
theorem pay2_apply (x : Vec Ideal S5000x128 .f32) (s : Vec Ideal S5000x1 .f32) (w : Vec Ideal S128x128 .f32) (r : Fin 5000) (j : Fin 128) :
    k2_pay1 (F := Ideal) x s w (ix2 r j) = ∑ k : Fin 128, (x (ix2 r k) * s (ix2 r 0)) * w (ix2 k j) := by
  unfold k2_pay1
  refine (matmul128_apply _ _ r j).trans ?_
  refine Finset.sum_congr rfl fun k _ => ?_
  rw [truncf_apply, truncf_apply, mulf_apply, colBcast_apply, shapeCast_self, shapeCast_self]

/-- Body 3: the block's entries scaled by their rows' factors, plus the bias row. -/
theorem pay3_apply (a : Vec Ideal S5000x128 .f32) (s : Vec Ideal S5000x1 .f32) (b : Vec Ideal S1x128 .f32) (r : Fin 5000) (j : Fin 128) :
    k3_pay1 (F := Ideal) a s b (ix2 r j) = a (ix2 r j) * s (ix2 r 0) + b (ix2 0 j) := by
  unfold k3_pay1
  rw [addf_apply, mulf_apply, colBcast_apply, rowBcast128_apply, shapeCast_self, shapeCast_self, shapeCast_self]

/-- Body 4: the block's rows times the 128 × 40 matrix, plus the bias row. -/
theorem pay4_apply (h : Vec Ideal S5000x128 .f32) (w : Vec Ideal S128x40 .f32) (b : Vec Ideal S1x40 .f32) (r : Fin 5000) (j : Fin 40) :
    k4_pay1 (F := Ideal) h w b (ix2 r j) = (∑ k : Fin 128, h (ix2 r k) * w (ix2 k j)) + b (ix2 0 j) := by
  unfold k4_pay1
  rw [addf_apply, rowBcast40_apply, shapeCast_self, shapeCast_self]
  refine congrArg (· + b (ix2 0 j)) ?_
  refine (matmul40_apply _ _ r j).trans ?_
  refine Finset.sum_congr rfl fun k _ => ?_
  rw [truncf_apply, truncf_apply]

end Cert.KernelIdeal.Block

end
-- ==== Proof.Region0.lean ====
/-
  Region 0 (the first layer's scaled linear map), whatever the buffers hold when it is entered (`V`): the node features
  are cut into 20 blocks of 5000 rows; at block t the body computes, for each of its rows r and each column j,
  Σ_k (x[5000 t + r, k] · s[5000 t + r]) · w[k, j], and writes the block back over rows 5000 t … 5000 t + 4999 of the
  result. The 20 blocks tile the result, so it ends holding `scaleLinear x s w` of the three arrays the region reads.
-/
import proofs.«152073_j87892210745352_1_alg».proof.Proof.Gen.KernelIdeal.Frame
import proofs.«152073_j87892210745352_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Block Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the matrix at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows 5000 t … of the feature array. -/
theorem x_blk (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → Elt Ideal .f32) k := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The factor block at point t is rows 5000 t … of the factor column. -/
theorem s_blk (c : Dev nD) (t : Fin cfg0.N) (y : S5000x1.Idx) (k : S100000x1.Idx)
    (hk0 : (k 0).val = 5000 * t.val + (y 0).val) (hk1 : (k 1).val = (y 1).val) :
    (iblk0 V c 1 t : Vec Ideal S5000x1 .f32) y = (V c main_v16 : S100000x1.Idx → Elt Ideal .f32) k := by
  obtain ⟨-, -, e0, e1, -⟩ := idx_facts t
  unfold iblk0
  rw [View.read_apply]
  show V c main_v16 _ = V c main_v16 _
  refine congrArg (V c main_v16) ?_
  funext a
  apply Fin.ext
  match a with
  | ⟨0, _⟩ => show win0_1.index t 0 * 5000 + 1 * (y 0).val = (k 0).val; rw [e0, hk0]; omega
  | ⟨1, _⟩ => show win0_1.index t 1 * 1 + 1 * (y 1).val = (k 1).val; rw [e1, hk1]; omega

/-- The matrix's one block is the matrix. -/
theorem w_blk (c : Dev nD) (t : Fin cfg0.N) (y : S128x128.Idx) :
    (iblk0 V c 2 t : Vec Ideal S128x128 .f32) y = (V c main_arg2 : S128x128.Idx → Elt Ideal .f32) y := by
  obtain ⟨-, -, -, -, e0, e1, -⟩ := idx_facts t
  unfold iblk0
  rw [View.read_apply]
  show V c main_arg2 _ = V c main_arg2 _
  refine congrArg (V c main_arg2) ?_
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- What point t writes back is block t of `scaleLinear` of the arrays the region reads. -/
theorem flushed_eq (c : Dev nD) (t : Fin cfg0.N) :
    (dat0 V c).flushed 3 t = ((cfg0.win 3).blk t).view.read (Elt Ideal)
      (scaleLinear (V c main_arg0 : S100000x128.Idx → Elt Ideal .f32) (V c main_v16 : S100000x1.Idx → Elt Ideal .f32) (V c main_arg2 : S128x128.Idx → Elt Ideal .f32)) := by
  obtain ⟨-, -, -, -, -, -, e0, e1⟩ := idx_facts t
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  funext y
  have hy : y = ix2 (n0 := 5000) (n1 := 128) (y 0) (y 1) := eq_ix2 (n0 := 5000) (n1 := 128) y
  have h0 : ((((cfg0.win 3).blk t).view.emb y) 0).val = 5000 * t.val + (y 0).val := by
    show win0_3.index t 0 * 5000 + 1 * (y 0).val = _; rw [e0]; omega
  have h1 : ((((cfg0.win 3).blk t).view.emb y) 1).val = (y 1).val := by
    show win0_3.index t 1 * 128 + 1 * (y 1).val = _; rw [e1]; omega
  show k0_pay1 (F := Ideal) (iblk0 V c 0 t) (iblk0 V c 1 t) (iblk0 V c 2 t) y
    = scaleLinear (V c main_arg0 : S100000x128.Idx → Elt Ideal .f32) (V c main_v16 : S100000x1.Idx → Elt Ideal .f32) (V c main_arg2 : S128x128.Idx → Elt Ideal .f32) (((cfg0.win 3).blk t).view.emb y)
  refine ((congrArg (k0_pay1 (F := Ideal) (iblk0 V c 0 t) (iblk0 V c 1 t) (iblk0 V c 2 t)) hy).trans (pay0_apply _ _ _ (y 0) (y 1))).trans ?_
  unfold scaleLinear
  refine Finset.sum_congr rfl fun k _ => ?_
  rw [x_blk V c t (ix2 (y 0) k) (ix2 ((((cfg0.win 3).blk t).view.emb y) 0) k) h0 rfl,
    s_blk V c t (ix2 (y 0) 0) (ix2 ((((cfg0.win 3).blk t).view.emb y) 0) 0) h0 rfl,
    w_blk V c t (ix2 k (y 1))]
  have hw : (ix2 (n0 := 128) (n1 := 128) k (y 1) : S128x128.Idx) = ix2 (n0 := 128) (n1 := 128) k (((cfg0.win 3).blk t).view.emb y 1) := by
    funext a
    match a with
    | ⟨0, _⟩ => rfl
    | ⟨1, _⟩ => exact Fin.ext h1.symm
  rw [hw]

/-- An index of the result is in point t's block iff its row is among rows 5000 t … 5000 t + 4999. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19).slice (win0_3.rect t)).set ↔ _
  rw [View.set_slice_whole, Rect.mem_set_unit]
  exact Iff.rfl

/-- Every index of the result is in the block of the point its row falls in: row n is in block n / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e0, e1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e1]; omega

/-- The result array after the region: `scaleLinear` of the three arrays the region reads, as it found them. -/
theorem final (c : Dev nD) :
    (dat0 V c).arrAt 3 cfg0.N = scaleLinear (V c main_arg0 : S100000x128.Idx → Elt Ideal .f32) (V c main_v16 : S100000x1.Idx → Elt Ideal .f32) (V c main_arg2 : S128x128.Idx → Elt Ideal .f32) :=
  (dat0 V c).arrAt_eq_of_cover 3 _ (fun t _ => flushed_eq V c t) cover

end Cert.KernelIdeal.Region0

end
-- ==== Proof.Region1.lean ====
/-
  Region 1 (the first layer's scale and bias, rectified), whatever the buffers hold when it is entered (`V`): the
  aggregated messages a are cut into 20 blocks of 5000 rows; at block t the body computes, for each of its rows r and each
  column j, max (a[5000 t + r, j] · s[5000 t + r] + b[j]) 0, and writes the block back over rows
  5000 t … 5000 t + 4999 of the result. The 20 blocks tile the result, so it ends holding `scaleBiasRelu a s b` of the three
  arrays the region reads.
-/
import proofs.«152073_j87892210745352_1_alg».proof.Proof.Gen.KernelIdeal.Frame
import proofs.«152073_j87892210745352_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Block Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the bias row at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of a at point t is rows 5000 t … of a. -/
theorem a_blk (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v29 : S100000x128.Idx → Elt Ideal .f32) k := by
  obtain ⟨e0, e1, -⟩ := idx_facts t
  unfold iblk1
  rw [View.read_apply]
  show V c main_v29 _ = V c main_v29 _
  refine congrArg (V c main_v29) ?_
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The factor block at point t is rows 5000 t … of the factor column. -/
theorem s_blk (c : Dev nD) (t : Fin cfg1.N) (y : S5000x1.Idx) (k : S100000x1.Idx)
    (hk0 : (k 0).val = 5000 * t.val + (y 0).val) (hk1 : (k 1).val = (y 1).val) :
    (iblk1 V c 1 t : Vec Ideal S5000x1 .f32) y = (V c main_v18 : S100000x1.Idx → Elt Ideal .f32) k := by
  obtain ⟨-, -, e0, e1, -⟩ := idx_facts t
  unfold iblk1
  rw [View.read_apply]
  show V c main_v18 _ = V c main_v18 _
  refine congrArg (V c main_v18) ?_
  funext a
  apply Fin.ext
  match a with
  | ⟨0, _⟩ => show win1_1.index t 0 * 5000 + 1 * (y 0).val = (k 0).val; rw [e0, hk0]; omega
  | ⟨1, _⟩ => show win1_1.index t 1 * 1 + 1 * (y 1).val = (k 1).val; rw [e1, hk1]; omega

/-- The bias row's one block is the bias row. -/
theorem b_blk (c : Dev nD) (t : Fin cfg1.N) (y : S1x128.Idx) :
    (iblk1 V c 2 t : Vec Ideal S1x128 .f32) y = (V c main_v30 : S1x128.Idx → Elt Ideal .f32) y := by
  obtain ⟨-, -, -, -, e0, e1, -⟩ := idx_facts t
  unfold iblk1
  rw [View.read_apply]
  show V c main_v30 _ = V c main_v30 _
  refine congrArg (V c main_v30) ?_
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- What point t writes back is block t of `scaleBiasRelu` of the arrays the region reads. -/
theorem flushed_eq (c : Dev nD) (t : Fin cfg1.N) :
    (dat1 V c).flushed 3 t = ((cfg1.win 3).blk t).view.read (Elt Ideal)
      (scaleBiasRelu (V c main_v29 : S100000x128.Idx → Elt Ideal .f32) (V c main_v18 : S100000x1.Idx → Elt Ideal .f32) (V c main_v30 : S1x128.Idx → Elt Ideal .f32)) := by
  obtain ⟨-, -, -, -, -, -, e0, e1⟩ := idx_facts t
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext y
  have hy : y = ix2 (n0 := 5000) (n1 := 128) (y 0) (y 1) := eq_ix2 (n0 := 5000) (n1 := 128) y
  have h0 : ((((cfg1.win 3).blk t).view.emb y) 0).val = 5000 * t.val + (y 0).val := by
    show win1_3.index t 0 * 5000 + 1 * (y 0).val = _; rw [e0]; omega
  have h1 : ((((cfg1.win 3).blk t).view.emb y) 1).val = (y 1).val := by
    show win1_3.index t 1 * 128 + 1 * (y 1).val = _; rw [e1]; omega
  show k1_pay1 (F := Ideal) (iblk1 V c 0 t) (iblk1 V c 1 t) (iblk1 V c 2 t) y
    = scaleBiasRelu (V c main_v29 : S100000x128.Idx → Elt Ideal .f32) (V c main_v18 : S100000x1.Idx → Elt Ideal .f32) (V c main_v30 : S1x128.Idx → Elt Ideal .f32) (((cfg1.win 3).blk t).view.emb y)
  refine ((congrArg (k1_pay1 (F := Ideal) (iblk1 V c 0 t) (iblk1 V c 1 t) (iblk1 V c 2 t)) hy).trans (pay1_apply _ _ _ (y 0) (y 1))).trans ?_
  unfold scaleBiasRelu
  rw [a_blk V c t (ix2 (y 0) (y 1)) (((cfg1.win 3).blk t).view.emb y) h0 h1,
    s_blk V c t (ix2 (y 0) 0) (ix2 ((((cfg1.win 3).blk t).view.emb y) 0) 0) h0 rfl,
    b_blk V c t (ix2 0 (y 1))]
  have hb : (ix2 (n0 := 1) (n1 := 128) 0 (y 1) : S1x128.Idx) = ix2 (n0 := 1) (n1 := 128) 0 (((cfg1.win 3).blk t).view.emb y 1) := by
    funext a
    match a with
    | ⟨0, _⟩ => rfl
    | ⟨1, _⟩ => exact Fin.ext h1.symm
  rw [hb]

/-- An index of the result is in point t's block iff its row is among rows 5000 t … 5000 t + 4999. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31).slice (win1_3.rect t)).set ↔ _
  rw [View.set_slice_whole, Rect.mem_set_unit]
  exact Iff.rfl

/-- Every index of the result is in the block of the point its row falls in: row n is in block n / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, e0, e1⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val ∧ (i 1).val < win1_3.index ⟨(i 0).val / 5000, ht⟩ 1 * 128 + 128
    rw [e1]; omega

/-- The result array after the region: `scaleBiasRelu` of the three arrays the region reads, as it found them. -/
theorem final (c : Dev nD) :
    (dat1 V c).arrAt 3 cfg1.N = scaleBiasRelu (V c main_v29 : S100000x128.Idx → Elt Ideal .f32) (V c main_v18 : S100000x1.Idx → Elt Ideal .f32) (V c main_v30 : S1x128.Idx → Elt Ideal .f32) :=
  (dat1 V c).arrAt_eq_of_cover 3 _ (fun t _ => flushed_eq V c t) cover

end Cert.KernelIdeal.Region1

end
-- ==== Proof.Region2.lean ====
/-
  Region 2 (the second layer's scaled linear map), whatever the buffers hold when it is entered (`V`): the first layer's
  output h is cut into 20 blocks of 5000 rows; at block t the body computes, for each of its rows r and each column j,
  Σ_k (h[5000 t + r, k] · s[5000 t + r]) · w[k, j], and writes the block back over rows 5000 t … 5000 t + 4999 of the
  result. The 20 blocks tile the result, so it ends holding `scaleLinear h s w` of the three arrays the region reads.
-/
import proofs.«152073_j87892210745352_1_alg».proof.Proof.Gen.KernelIdeal.Frame
import proofs.«152073_j87892210745352_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Block Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the matrix at its one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of h at point t is rows 5000 t … of h. -/
theorem h_blk (c : Dev nD) (t : Fin cfg2.N) (y : S5000x128.Idx) (k : S100000x128.Idx)
    (hk0 : (k 0).val = 5000 * t.val + (y 0).val) (hk1 : (k 1).val = (y 1).val) :
    (iblk2 V c 0 t : Vec Ideal S5000x128 .f32) y = (V c main_v31 : S100000x128.Idx → Elt Ideal .f32) k := by
  obtain ⟨e0, e1, -⟩ := idx_facts t
  unfold iblk2
  rw [View.read_apply]
  show V c main_v31 _ = V c main_v31 _
  refine congrArg (V c main_v31) ?_
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- The factor block at point t is rows 5000 t … of the factor column. -/
theorem s_blk (c : Dev nD) (t : Fin cfg2.N) (y : S5000x1.Idx) (k : S100000x1.Idx)
    (hk0 : (k 0).val = 5000 * t.val + (y 0).val) (hk1 : (k 1).val = (y 1).val) :
    (iblk2 V c 1 t : Vec Ideal S5000x1 .f32) y = (V c main_v16 : S100000x1.Idx → Elt Ideal .f32) k := by
  obtain ⟨-, -, e0, e1, -⟩ := idx_facts t
  unfold iblk2
  rw [View.read_apply]
  show V c main_v16 _ = V c main_v16 _
  refine congrArg (V c main_v16) ?_
  funext a
  apply Fin.ext
  match a with
  | ⟨0, _⟩ => show win2_1.index t 0 * 5000 + 1 * (y 0).val = (k 0).val; rw [e0, hk0]; omega
  | ⟨1, _⟩ => show win2_1.index t 1 * 1 + 1 * (y 1).val = (k 1).val; rw [e1, hk1]; omega

/-- The matrix's one block is the matrix. -/
theorem w_blk (c : Dev nD) (t : Fin cfg2.N) (y : S128x128.Idx) :
    (iblk2 V c 2 t : Vec Ideal S128x128 .f32) y = (V c main_arg4 : S128x128.Idx → Elt Ideal .f32) y := by
  obtain ⟨-, -, -, -, e0, e1, -⟩ := idx_facts t
  unfold iblk2
  rw [View.read_apply]
  show V c main_arg4 _ = V c main_arg4 _
  refine congrArg (V c main_arg4) ?_
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- What point t writes back is block t of `scaleLinear` of the arrays the region reads. -/
theorem flushed_eq (c : Dev nD) (t : Fin cfg2.N) :
    (dat2 V c).flushed 3 t = ((cfg2.win 3).blk t).view.read (Elt Ideal)
      (scaleLinear (V c main_v31 : S100000x128.Idx → Elt Ideal .f32) (V c main_v16 : S100000x1.Idx → Elt Ideal .f32) (V c main_arg4 : S128x128.Idx → Elt Ideal .f32)) := by
  obtain ⟨-, -, -, -, -, -, e0, e1⟩ := idx_facts t
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x128) hz]
  funext y
  have hy : y = ix2 (n0 := 5000) (n1 := 128) (y 0) (y 1) := eq_ix2 (n0 := 5000) (n1 := 128) y
  have h0 : ((((cfg2.win 3).blk t).view.emb y) 0).val = 5000 * t.val + (y 0).val := by
    show win2_3.index t 0 * 5000 + 1 * (y 0).val = _; rw [e0]; omega
  have h1 : ((((cfg2.win 3).blk t).view.emb y) 1).val = (y 1).val := by
    show win2_3.index t 1 * 128 + 1 * (y 1).val = _; rw [e1]; omega
  show k2_pay1 (F := Ideal) (iblk2 V c 0 t) (iblk2 V c 1 t) (iblk2 V c 2 t) y
    = scaleLinear (V c main_v31 : S100000x128.Idx → Elt Ideal .f32) (V c main_v16 : S100000x1.Idx → Elt Ideal .f32) (V c main_arg4 : S128x128.Idx → Elt Ideal .f32) (((cfg2.win 3).blk t).view.emb y)
  refine ((congrArg (k2_pay1 (F := Ideal) (iblk2 V c 0 t) (iblk2 V c 1 t) (iblk2 V c 2 t)) hy).trans (pay2_apply _ _ _ (y 0) (y 1))).trans ?_
  unfold scaleLinear
  refine Finset.sum_congr rfl fun k _ => ?_
  rw [h_blk V c t (ix2 (y 0) k) (ix2 ((((cfg2.win 3).blk t).view.emb y) 0) k) h0 rfl,
    s_blk V c t (ix2 (y 0) 0) (ix2 ((((cfg2.win 3).blk t).view.emb y) 0) 0) h0 rfl,
    w_blk V c t (ix2 k (y 1))]
  have hw : (ix2 (n0 := 128) (n1 := 128) k (y 1) : S128x128.Idx) = ix2 (n0 := 128) (n1 := 128) k (((cfg2.win 3).blk t).view.emb y 1) := by
    funext a
    match a with
    | ⟨0, _⟩ => rfl
    | ⟨1, _⟩ => exact Fin.ext h1.symm
  rw [hw]

/-- An index of the result is in point t's block iff its row is among rows 5000 t … 5000 t + 4999. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v32).slice (win2_3.rect t)).set ↔ _
  rw [View.set_slice_whole, Rect.mem_set_unit]
  exact Iff.rfl

/-- Every index of the result is in the block of the point its row falls in: row n is in block n / 5000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, e0, e1⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ 1 * 128 ≤ (i 1).val ∧ (i 1).val < win2_3.index ⟨(i 0).val / 5000, ht⟩ 1 * 128 + 128
    rw [e1]; omega

/-- The result array after the region: `scaleLinear` of the three arrays the region reads, as it found them. -/
theorem final (c : Dev nD) :
    (dat2 V c).arrAt 3 cfg2.N = scaleLinear (V c main_v31 : S100000x128.Idx → Elt Ideal .f32) (V c main_v16 : S100000x1.Idx → Elt Ideal .f32) (V c main_arg4 : S128x128.Idx → Elt Ideal .f32) :=
  (dat2 V c).arrAt_eq_of_cover 3 _ (fun t _ => flushed_eq V c t) cover

end Cert.KernelIdeal.Region2

end
-- ==== Proof.Region3.lean ====
/-
  Region 3 (the second layer's scale and bias), whatever the buffers hold when it is entered (`V`): the
  aggregated messages a are cut into 20 blocks of 5000 rows; at block t the body computes, for each of its rows r and each
  column j, a[5000 t + r, j] · s[5000 t + r] + b[j], and writes the block back over rows
  5000 t … 5000 t + 4999 of the result. The 20 blocks tile the result, so it ends holding `scaleBias a s b` of the three
  arrays the region reads.
-/
import proofs.«152073_j87892210745352_1_alg».proof.Proof.Gen.KernelIdeal.Frame
import proofs.«152073_j87892210745352_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.KernelIdeal.Block Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the bias row at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The block of a at point t is rows 5000 t … of a. -/
theorem a_blk (c : Dev nD) (t : Fin cfg3.N) (y : S5000x128.Idx) (k : S100000x128.Idx)
    (hk0 : (k 0).val = 5000 * t.val + (y 0).val) (hk1 : (k 1).val = (y 1).val) :
    (iblk3 V c 0 t : Vec Ideal S5000x128 .f32) y = (V c main_v42 : S100000x128.Idx → Elt Ideal .f32) k := by
  obtain ⟨e0, e1, -⟩ := idx_facts t
  unfold iblk3
  rw [View.read_apply]
  show V c main_v42 _ = V c main_v42 _
  refine congrArg (V c main_v42) ?_
  funext a
  apply Fin.ext
  match a with
  | ⟨0, _⟩ => show win3_0.index t 0 * 5000 + 1 * (y 0).val = (k 0).val; rw [e0, hk0]; omega
  | ⟨1, _⟩ => show win3_0.index t 1 * 128 + 1 * (y 1).val = (k 1).val; rw [e1, hk1]; omega

/-- The factor block at point t is rows 5000 t … of the factor column. -/
theorem s_blk (c : Dev nD) (t : Fin cfg3.N) (y : S5000x1.Idx) (k : S100000x1.Idx)
    (hk0 : (k 0).val = 5000 * t.val + (y 0).val) (hk1 : (k 1).val = (y 1).val) :
    (iblk3 V c 1 t : Vec Ideal S5000x1 .f32) y = (V c main_v18 : S100000x1.Idx → Elt Ideal .f32) k := by
  obtain ⟨-, -, e0, e1, -⟩ := idx_facts t
  unfold iblk3
  rw [View.read_apply]
  show V c main_v18 _ = V c main_v18 _
  refine congrArg (V c main_v18) ?_
  funext a
  apply Fin.ext
  match a with
  | ⟨0, _⟩ => show win3_1.index t 0 * 5000 + 1 * (y 0).val = (k 0).val; rw [e0, hk0]; omega
  | ⟨1, _⟩ => show win3_1.index t 1 * 1 + 1 * (y 1).val = (k 1).val; rw [e1, hk1]; omega

/-- The bias row's one block is the bias row. -/
theorem b_blk (c : Dev nD) (t : Fin cfg3.N) (y : S1x128.Idx) :
    (iblk3 V c 2 t : Vec Ideal S1x128 .f32) y = (V c main_v43 : S1x128.Idx → Elt Ideal .f32) y := by
  obtain ⟨-, -, -, -, e0, e1, -⟩ := idx_facts t
  unfold iblk3
  rw [View.read_apply]
  show V c main_v43 _ = V c main_v43 _
  refine congrArg (V c main_v43) ?_
  funext a
  apply Fin.ext
  match a with
  | ⟨0, _⟩ => show win3_2.index t 0 * 1 + 1 * (y 0).val = (y 0).val; rw [e0]; omega
  | ⟨1, _⟩ => show win3_2.index t 1 * 128 + 1 * (y 1).val = (y 1).val; rw [e1]; omega

/-- What point t writes back is block t of `scaleBias` of the arrays the region reads. -/
theorem flushed_eq (c : Dev nD) (t : Fin cfg3.N) :
    (dat3 V c).flushed 3 t = ((cfg3.win 3).blk t).view.read (Elt Ideal)
      (scaleBias (V c main_v42 : S100000x128.Idx → Elt Ideal .f32) (V c main_v18 : S100000x1.Idx → Elt Ideal .f32) (V c main_v43 : S1x128.Idx → Elt Ideal .f32)) := by
  obtain ⟨-, -, -, -, -, -, e0, e1⟩ := idx_facts t
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  funext y
  have hy : y = ix2 (n0 := 5000) (n1 := 128) (y 0) (y 1) := eq_ix2 (n0 := 5000) (n1 := 128) y
  have h0 : ((((cfg3.win 3).blk t).view.emb y) 0).val = 5000 * t.val + (y 0).val := by
    show win3_3.index t 0 * 5000 + 1 * (y 0).val = _; rw [e0]; omega
  have h1 : ((((cfg3.win 3).blk t).view.emb y) 1).val = (y 1).val := by
    show win3_3.index t 1 * 128 + 1 * (y 1).val = _; rw [e1]; omega
  show k3_pay1 (F := Ideal) (iblk3 V c 0 t) (iblk3 V c 1 t) (iblk3 V c 2 t) y
    = scaleBias (V c main_v42 : S100000x128.Idx → Elt Ideal .f32) (V c main_v18 : S100000x1.Idx → Elt Ideal .f32) (V c main_v43 : S1x128.Idx → Elt Ideal .f32) (((cfg3.win 3).blk t).view.emb y)
  refine ((congrArg (k3_pay1 (F := Ideal) (iblk3 V c 0 t) (iblk3 V c 1 t) (iblk3 V c 2 t)) hy).trans (pay3_apply _ _ _ (y 0) (y 1))).trans ?_
  unfold scaleBias
  rw [a_blk V c t (ix2 (y 0) (y 1)) (((cfg3.win 3).blk t).view.emb y) h0 h1,
    s_blk V c t (ix2 (y 0) 0) (ix2 ((((cfg3.win 3).blk t).view.emb y) 0) 0) h0 rfl,
    b_blk V c t (ix2 0 (y 1))]
  have hb : (ix2 (n0 := 1) (n1 := 128) 0 (y 1) : S1x128.Idx) = ix2 (n0 := 1) (n1 := 128) 0 (((cfg3.win 3).blk t).view.emb y 1) := by
    funext a
    match a with
    | ⟨0, _⟩ => rfl
    | ⟨1, _⟩ => exact Fin.ext h1.symm
  rw [hb]

/-- An index of the result is in point t's block iff its row is among rows 5000 t … 5000 t + 4999. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v44).slice (win3_3.rect t)).set ↔ _
  rw [View.set_slice_whole, Rect.mem_set_unit]
  exact Iff.rfl

/-- Every index of the result is in the block of the point its row falls in: row n is in block n / 5000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, e0, e1⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ 0 * 5000 ≤ (i 0).val ∧ (i 0).val < win3_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ 1 * 128 ≤ (i 1).val ∧ (i 1).val < win3_3.index ⟨(i 0).val / 5000, ht⟩ 1 * 128 + 128
    rw [e1]; omega

/-- The result array after the region: `scaleBias` of the three arrays the region reads, as it found them. -/
theorem final (c : Dev nD) :
    (dat3 V c).arrAt 3 cfg3.N = scaleBias (V c main_v42 : S100000x128.Idx → Elt Ideal .f32) (V c main_v18 : S100000x1.Idx → Elt Ideal .f32) (V c main_v43 : S1x128.Idx → Elt Ideal .f32) :=
  (dat3 V c).arrAt_eq_of_cover 3 _ (fun t _ => flushed_eq V c t) cover

end Cert.KernelIdeal.Region3

end
-- ==== Proof.Region4.lean ====
/-
  Region 4 (the classifier), whatever the buffers hold when it is entered (`V`): the second layer's output h is cut into
  20 blocks of 5000 rows; at block t the body computes, for each of its rows r and each of the 40 classes j,
  (Σ_k h[5000 t + r, k] · w[k, j]) + b[j], and writes the block back over rows 5000 t … 5000 t + 4999 of the result.
  The 20 blocks tile the result, so it ends holding `linearBias h w b` of the three arrays the region reads.
-/
import proofs.«152073_j87892210745352_1_alg».proof.Proof.Gen.KernelIdeal.Frame
import proofs.«152073_j87892210745352_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.KernelIdeal.Block Cert.Gnn

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the matrix and the bias row at their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block of h at point t is rows 5000 t … of h. -/
theorem h_blk (c : Dev nD) (t : Fin cfg4.N) (y : S5000x128.Idx) (k : S100000x128.Idx)
    (hk0 : (k 0).val = 5000 * t.val + (y 0).val) (hk1 : (k 1).val = (y 1).val) :
    (iblk4 V c 0 t : Vec Ideal S5000x128 .f32) y = (V c main_v44 : S100000x128.Idx → Elt Ideal .f32) k := by
  obtain ⟨e0, e1, -⟩ := idx_facts t
  unfold iblk4
  rw [View.read_apply]
  show V c main_v44 _ = V c main_v44 _
  refine congrArg (V c main_v44) ?_
  funext a
  apply Fin.ext
  match a with
  | ⟨0, _⟩ => show win4_0.index t 0 * 5000 + 1 * (y 0).val = (k 0).val; rw [e0, hk0]; omega
  | ⟨1, _⟩ => show win4_0.index t 1 * 128 + 1 * (y 1).val = (k 1).val; rw [e1, hk1]; omega

/-- The matrix's one block is the matrix. -/
theorem w_blk (c : Dev nD) (t : Fin cfg4.N) (y : S128x40.Idx) :
    (iblk4 V c 1 t : Vec Ideal S128x40 .f32) y = (V c main_arg6 : S128x40.Idx → Elt Ideal .f32) y := by
  obtain ⟨-, -, e0, e1, -⟩ := idx_facts t
  unfold iblk4
  rw [View.read_apply]
  show V c main_arg6 _ = V c main_arg6 _
  refine congrArg (V c main_arg6) ?_
  funext a
  apply Fin.ext
  match a with
  | ⟨0, _⟩ => show win4_1.index t 0 * 128 + 1 * (y 0).val = (y 0).val; rw [e0]; omega
  | ⟨1, _⟩ => show win4_1.index t 1 * 40 + 1 * (y 1).val = (y 1).val; rw [e1]; omega

/-- The bias row's one block is the bias row. -/
theorem b_blk (c : Dev nD) (t : Fin cfg4.N) (y : S1x40.Idx) :
    (iblk4 V c 2 t : Vec Ideal S1x40 .f32) y = (V c main_v45 : S1x40.Idx → Elt Ideal .f32) y := by
  obtain ⟨-, -, -, -, e0, e1, -⟩ := idx_facts t
  unfold iblk4
  rw [View.read_apply]
  show V c main_v45 _ = V c main_v45 _
  refine congrArg (V c main_v45) ?_
  funext a
  apply Fin.ext
  match a with
  | ⟨0, _⟩ => show win4_2.index t 0 * 1 + 1 * (y 0).val = (y 0).val; rw [e0]; omega
  | ⟨1, _⟩ => show win4_2.index t 1 * 40 + 1 * (y 1).val = (y 1).val; rw [e1]; omega

/-- What point t writes back is block t of `linearBias` of the arrays the region reads. -/
theorem flushed_eq (c : Dev nD) (t : Fin cfg4.N) :
    (dat4 V c).flushed 3 t = ((cfg4.win 3).blk t).view.read (Elt Ideal)
      (linearBias (V c main_v44 : S100000x128.Idx → Elt Ideal .f32) (V c main_arg6 : S128x40.Idx → Elt Ideal .f32) (V c main_v45 : S1x40.Idx → Elt Ideal .f32)) := by
  obtain ⟨-, -, -, -, -, -, e0, e1⟩ := idx_facts t
  show (cfg4.win 3).cut (grid4.coords t) ((dat4 V c).after 3 t) = _
  rw [after4_3]
  unfold out4_3
  rw [View.canon_unit_zero hz]
  simp only [View.ld_unit_zero (S := S5000x128) hz, View.ld_unit_zero (S := S128x40) hz, View.ld_unit_zero (S := S1x40) hz]
  funext y
  have hy : y = ix2 (n0 := 5000) (n1 := 40) (y 0) (y 1) := eq_ix2 (n0 := 5000) (n1 := 40) y
  have h0 : ((((cfg4.win 3).blk t).view.emb y) 0).val = 5000 * t.val + (y 0).val := by
    show win4_3.index t 0 * 5000 + 1 * (y 0).val = _; rw [e0]; omega
  have h1 : ((((cfg4.win 3).blk t).view.emb y) 1).val = (y 1).val := by
    show win4_3.index t 1 * 40 + 1 * (y 1).val = _; rw [e1]; omega
  show k4_pay1 (F := Ideal) (iblk4 V c 0 t) (iblk4 V c 1 t) (iblk4 V c 2 t) y
    = linearBias (V c main_v44 : S100000x128.Idx → Elt Ideal .f32) (V c main_arg6 : S128x40.Idx → Elt Ideal .f32) (V c main_v45 : S1x40.Idx → Elt Ideal .f32) (((cfg4.win 3).blk t).view.emb y)
  refine ((congrArg (k4_pay1 (F := Ideal) (iblk4 V c 0 t) (iblk4 V c 1 t) (iblk4 V c 2 t)) hy).trans (pay4_apply _ _ _ (y 0) (y 1))).trans ?_
  unfold linearBias
  have hw : ∀ k : Fin 128, (ix2 (n0 := 128) (n1 := 40) k (y 1) : S128x40.Idx) = ix2 (n0 := 128) (n1 := 40) k (((cfg4.win 3).blk t).view.emb y 1) := fun k => by
    funext a
    match a with
    | ⟨0, _⟩ => rfl
    | ⟨1, _⟩ => exact Fin.ext h1.symm
  have hb : (ix2 (n0 := 1) (n1 := 40) 0 (y 1) : S1x40.Idx) = ix2 (n0 := 1) (n1 := 40) 0 (((cfg4.win 3).blk t).view.emb y 1) := by
    funext a
    match a with
    | ⟨0, _⟩ => rfl
    | ⟨1, _⟩ => exact Fin.ext h1.symm
  refine congrArg₂ (· + ·) (Finset.sum_congr rfl fun k _ => ?_) ?_
  · rw [h_blk V c t (ix2 (y 0) k) (ix2 ((((cfg4.win 3).blk t).view.emb y) 0) k) h0 rfl, w_blk V c t (ix2 k (y 1)), hw k]
  · rw [b_blk V c t (ix2 0 (y 1)), hb]

/-- An index of the result is in point t's block iff its row is among rows 5000 t … 5000 t + 4999. -/
theorem mem_blk (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v46).slice (win4_3.rect t)).set ↔ _
  rw [View.set_slice_whole, Rect.mem_set_unit]
  exact Iff.rfl

/-- Every index of the result is in the block of the point its row falls in: row n is in block n / 5000. -/
theorem cover (i : S100000x40.Idx) : ∃ t : Fin cfg4.N, (cfg4.win 3).flush t = true ∧ i ∈ ((cfg4.win 3).blk t).view.set := by
  have hi0 : (i 0).val < 100000 := (i 0).isLt
  have hi1 : (i 1).val < 40 := (i 1).isLt
  have hN : cfg4.N = 20 := N_4
  have ht : (i 0).val / 5000 < cfg4.N := by rw [hN]; omega
  obtain ⟨-, -, -, -, -, -, e0, e1⟩ := idx_facts ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ 0 * 5000 ≤ (i 0).val ∧ (i 0).val < win4_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ 1 * 40 ≤ (i 1).val ∧ (i 1).val < win4_3.index ⟨(i 0).val / 5000, ht⟩ 1 * 40 + 40
    rw [e1]; omega

/-- The result array after the region: `linearBias` of the three arrays the region reads, as it found them. -/
theorem final (c : Dev nD) :
    (dat4 V c).arrAt 3 cfg4.N = linearBias (V c main_v44 : S100000x128.Idx → Elt Ideal .f32) (V c main_arg6 : S128x40.Idx → Elt Ideal .f32) (V c main_v45 : S1x40.Idx → Elt Ideal .f32) :=
  (dat4 V c).arrAt_eq_of_cover 3 _ (fun t _ => flushed_eq V c t) cover

end Cert.KernelIdeal.Region4

end
-- ==== Proof.RefStages.lean ====
/-
  The reference program, layer by layer: each of its five groups of operations computes one of the whole-array functions of
  Proof/Spec.lean of the values before it. Its per-node factor reaches a product as a column [n, 1] broadcast along the
  columns and its bias as a row [1, j] broadcast along the rows, so every entry reads the column at its node and the row at
  its feature; its two matrix products are sums over the contracted axis; its rectifier is the maximum against the zero word.
-/
import proofs.«152073_j87892210745352_1_alg».proof.Proof.Gen.ReferenceIdeal.Run
import proofs.«152073_j87892210745352_1_alg».proof.Proof.Gen.ReferenceIdeal.Read
import proofs.«152073_j87892210745352_1_alg».proof.Proof.Spec

noncomputable section

open scoped BigOperators

namespace Cert.ReferenceIdeal.Layers

open Cert.ReferenceIdeal Cert.ReferenceIdeal.Read Cert.Gnn
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x40, .f32⟩ : BufTy).Contents (Elt Ideal)) (x7 : (⟨S40, .f32⟩ : BufTy).Contents (Elt Ideal))

/-- The first layer's linear map: the features scaled by the outgoing-degree factors, times the first weight matrix. -/
theorem layer0 : val_main_v20 (F := Ideal) x0 x1 x2 = scaleLinear x0 (val_main_v17 (F := Ideal) x1) x2 := by
  funext i
  rw [val_main_v20_apply]
  unfold scaleLinear
  refine Finset.sum_congr rfl fun k _ => ?_
  rw [val_main_v19_apply, val_main_v18_apply]
  have e1 : lidx_main_v20 i k = ix2 (i 0) k := funext fun a => by match a with | ⟨0, _⟩ => rfl | ⟨1, _⟩ => rfl
  have e2 : idx_main_v18 (lidx_main_v20 i k) = ix2 (i 0) 0 := funext fun a => by match a with | ⟨0, _⟩ => rfl | ⟨1, _⟩ => rfl
  have e3 : ridx_main_v20 i k = ix2 k (i 1) := funext fun a => by match a with | ⟨0, _⟩ => rfl | ⟨1, _⟩ => rfl
  rw [e1, e2, e3]
  rfl

/-- The first layer's output: the aggregated messages scaled by the incoming-degree factors, plus the bias, rectified. -/
theorem layer1 : val_main_v37 (F := Ideal) x0 x1 x2 x3
    = scaleBiasRelu (val_main_v30 (F := Ideal) x0 x1 x2) (val_main_v31 (F := Ideal) x1) (val_main_v34 (F := Ideal) x3) := by
  funext i
  rw [val_main_v37_apply, val_main_v36_apply, val_main_v33_apply, val_main_v32_apply, val_main_v35_apply, val_main_call0_v0_apply, val_main_call0_cst_apply]
  unfold scaleBiasRelu
  have e1 : idx_main_v32 i = ix2 (i 0) 0 := funext fun a => by match a with | ⟨0, _⟩ => rfl | ⟨1, _⟩ => rfl
  have e2 : idx_main_v35 i = ix2 0 (i 1) := funext fun a => by match a with | ⟨0, _⟩ => rfl | ⟨1, _⟩ => rfl
  rw [e1, e2]
  rfl

/-- The second layer's linear map: the first layer's output scaled by the outgoing-degree factors, times the second weight matrix. -/
theorem layer2 : val_main_v41 (F := Ideal) x0 x1 x2 x3 x4
    = scaleLinear (val_main_v37 (F := Ideal) x0 x1 x2 x3) (val_main_v38 (F := Ideal) x1) x4 := by
  funext i
  rw [val_main_v41_apply]
  unfold scaleLinear
  refine Finset.sum_congr rfl fun k _ => ?_
  rw [val_main_v40_apply, val_main_v39_apply]
  have e1 : lidx_main_v41 i k = ix2 (i 0) k := funext fun a => by match a with | ⟨0, _⟩ => rfl | ⟨1, _⟩ => rfl
  have e2 : idx_main_v39 (lidx_main_v41 i k) = ix2 (i 0) 0 := funext fun a => by match a with | ⟨0, _⟩ => rfl | ⟨1, _⟩ => rfl
  have e3 : ridx_main_v41 i k = ix2 k (i 1) := funext fun a => by match a with | ⟨0, _⟩ => rfl | ⟨1, _⟩ => rfl
  rw [e1, e2, e3]
  rfl

/-- The second layer's output: the aggregated messages scaled by the incoming-degree factors, plus the bias. -/
theorem layer3 : val_main_v57 (F := Ideal) x0 x1 x2 x3 x4 x5
    = scaleBias (val_main_v51 (F := Ideal) x0 x1 x2 x3 x4) (val_main_v52 (F := Ideal) x1) (val_main_v55 (F := Ideal) x5) := by
  funext i
  rw [val_main_v57_apply, val_main_v54_apply, val_main_v53_apply, val_main_v56_apply]
  unfold scaleBias
  have e1 : idx_main_v53 i = ix2 (i 0) 0 := funext fun a => by match a with | ⟨0, _⟩ => rfl | ⟨1, _⟩ => rfl
  have e2 : idx_main_v56 i = ix2 0 (i 1) := funext fun a => by match a with | ⟨0, _⟩ => rfl | ⟨1, _⟩ => rfl
  rw [e1, e2]
  rfl

/-- The classifier: the second layer's output times the classifier matrix, plus the bias. -/
theorem layer4 : val_main_v61 (F := Ideal) x0 x1 x2 x3 x4 x5 x6 x7
    = linearBias (val_main_v57 (F := Ideal) x0 x1 x2 x3 x4 x5) x6 (val_main_v59 (F := Ideal) x7) := by
  funext i
  rw [val_main_v61_apply, val_main_v58_apply, val_main_v60_apply]
  unfold linearBias
  have e2 : idx_main_v60 i = ix2 0 (i 1) := funext fun a => by match a with | ⟨0, _⟩ => rfl | ⟨1, _⟩ => rfl
  rw [e2]
  refine congrArg₂ (· + ·) (Finset.sum_congr rfl fun k _ => ?_) rfl
  have e1 : lidx_main_v58 i k = ix2 (i 0) k := funext fun a => by match a with | ⟨0, _⟩ => rfl | ⟨1, _⟩ => rfl
  have e3 : ridx_main_v58 i k = ix2 k (i 1) := funext fun a => by match a with | ⟨0, _⟩ => rfl | ⟨1, _⟩ => rfl
  rw [e1, e3]
  rfl

end Cert.ReferenceIdeal.Layers

end
-- ==== Proof.KernelChain.lean ====
/-
  The kernel program's result, walked from the launch to the return. Between its five regions the program runs the same
  host operations as the reference: the node degrees by scatter-add of ones, their inverse square roots, and per layer the
  gather of source rows and the scatter-add into destination rows. Each region's result is the whole-array function of
  Proof/Spec.lean of what the region reads (Proof/Region0 … Region4), and each of the reference's layers is that same
  function of the reference's values (Proof/RefStages), so boundary by boundary every buffer that matters holds the
  reference's value of the launch arrays, and the result buffer ends at the reference's result.

  Two layouts differ between the programs and are the same function: the kernel reshapes a length-n vector to a column
  [n, 1] and a length-j vector to a row [1, j], where the reference broadcasts along a new unit axis.
-/
import proofs.«152073_j87892210745352_1_alg».proof.Proof.KernelRunNamed
import proofs.«152073_j87892210745352_1_alg».proof.Proof.Region0
import proofs.«152073_j87892210745352_1_alg».proof.Proof.Region1
import proofs.«152073_j87892210745352_1_alg».proof.Proof.Region2
import proofs.«152073_j87892210745352_1_alg».proof.Proof.Region3
import proofs.«152073_j87892210745352_1_alg».proof.Proof.Region4
import proofs.«152073_j87892210745352_1_alg».proof.Proof.RefStages
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.Gnn
open Cert.ReferenceIdeal.Read

/-! ## A reshape to a unit axis is a broadcast along it -/

/-- A length-100000 vector reshaped to a column is the vector broadcast along a new last axis. -/
theorem col_eq {α : Type} (v : S100000.Idx → α) (h : S100000.ShapeCasts S100000x1) (h' : S100000.BroadcastsInDim S100000x1 ![0]) :
    shapeCast S100000x1 v h = broadcastInDim S100000x1 ![0] h' v := by
  funext j
  have h1 : (j 1).val < 1 := (j 1).isLt
  rw [shapeCast_apply v h j (ix1 (n := 100000) (j 0)) (by
      rw [Shape.rowMajor_val_one, Shape.rowMajor_val_two]
      show (j 0).val = (j 0).val * 1 + (j 1).val
      omega),
    broadcastInDim_apply ![0] h' v j (ix1 (n := 100000) (j 0)) (fun a => match a with
      | ⟨0, _⟩ => by show (j 0).val = if (100000 : Nat) = 1 then 0 else (j 0).val; rw [if_neg (by decide)])]

/-- A length-128 vector reshaped to a row is the vector broadcast along a new first axis. -/
theorem row128_eq {α : Type} (v : S128.Idx → α) (h : S128.ShapeCasts S1x128) (h' : S128.BroadcastsInDim S1x128 ![1]) :
    shapeCast S1x128 v h = broadcastInDim S1x128 ![1] h' v := by
  funext j
  have h0 : (j 0).val < 1 := (j 0).isLt
  rw [shapeCast_apply v h j (ix1 (n := 128) (j 1)) (by
      rw [Shape.rowMajor_val_one, Shape.rowMajor_val_two]
      show (j 1).val = (j 0).val * 128 + (j 1).val
      omega),
    broadcastInDim_apply ![1] h' v j (ix1 (n := 128) (j 1)) (fun a => match a with
      | ⟨0, _⟩ => by show (j 1).val = if (128 : Nat) = 1 then 0 else (j 1).val; rw [if_neg (by decide)])]

/-- A length-40 vector reshaped to a row is the vector broadcast along a new first axis. -/
theorem row40_eq {α : Type} (v : S40.Idx → α) (h : S40.ShapeCasts S1x40) (h' : S40.BroadcastsInDim S1x40 ![1]) :
    shapeCast S1x40 v h = broadcastInDim S1x40 ![1] h' v := by
  funext j
  have h0 : (j 0).val < 1 := (j 0).isLt
  rw [shapeCast_apply v h j (ix1 (n := 40) (j 1)) (by
      rw [Shape.rowMajor_val_one, Shape.rowMajor_val_two]
      show (j 1).val = (j 0).val * 40 + (j 1).val
      omega),
    broadcastInDim_apply ![1] h' v j (ix1 (n := 40) (j 1)) (fun a => match a with
      | ⟨0, _⟩ => by show (j 1).val = if (40 : Nat) = 1 then 0 else (j 1).val; rw [if_neg (by decide)])]

/-! ## The host stretches, from any contents -/

/-- No operation of host stretch 0 writes the buffer: it keeps its contents over the stretch. -/
macro "keep0" : tactic =>
  `(tactic| (refine StableHlo.after_of_forall_not_mem _ _ (List.forall_iff_forall_mem.mp ?_)
             simp only [hostOps0, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))
/-- No operation of host stretch 1 writes the buffer: it keeps its contents over the stretch. -/
macro "keep1" : tactic =>
  `(tactic| (refine StableHlo.after_of_forall_not_mem _ _ (List.forall_iff_forall_mem.mp ?_)
             simp only [hostOps1, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))
/-- No operation of host stretch 3 writes the buffer: it keeps its contents over the stretch. -/
macro "keep3" : tactic =>
  `(tactic| (refine StableHlo.after_of_forall_not_mem _ _ (List.forall_iff_forall_mem.mp ?_)
             simp only [hostOps3, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))
/-- No operation of host stretch 4 writes the buffer: it keeps its contents over the stretch. -/
macro "keep4" : tactic =>
  `(tactic| (refine StableHlo.after_of_forall_not_mem _ _ (List.forall_iff_forall_mem.mp ?_)
             simp only [hostOps4, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

section Stretches

variable (W : Valuation τ sig (Elt Ideal))

/-- Stretch 0 leaves the edges' source nodes where the reference has them. -/
theorem s0_src : StableHlo.after (hostOps0 (F := Ideal)) W (Proc.devRef .tc main_v1) = val_main_v1 (F := Ideal) (W (Proc.devRef .tc main_arg1)) := by
  dsimp only [hostOps0]; after_results; rfl
/-- Stretch 0 leaves the edges' destination nodes where the reference has them. -/
theorem s0_dst : StableHlo.after (hostOps0 (F := Ideal)) W (Proc.devRef .tc main_v3) = val_main_v3 (F := Ideal) (W (Proc.devRef .tc main_arg1)) := by
  dsimp only [hostOps0]; after_results; rfl
/-- Stretch 0 leaves the outgoing-degree factors, as a column, at the reference's column of them. -/
theorem s0_nout : StableHlo.after (hostOps0 (F := Ideal)) W (Proc.devRef .tc main_v16) = val_main_v17 (F := Ideal) (W (Proc.devRef .tc main_arg1)) := by
  have h1 : StableHlo.after (hostOps0 (F := Ideal)) W (Proc.devRef .tc main_v16)
      = shapeCast S100000x1 (val_main_v15 (F := Ideal) (W (Proc.devRef .tc main_arg1))) (by decide) := by
    dsimp only [hostOps0]; after_results; rfl
  rw [h1]; unfold val_main_v17; exact col_eq _ _ _
/-- Stretch 0 leaves the incoming-degree factors, as a column, at the reference's column of them. -/
theorem s0_nin : StableHlo.after (hostOps0 (F := Ideal)) W (Proc.devRef .tc main_v18) = val_main_v31 (F := Ideal) (W (Proc.devRef .tc main_arg1)) := by
  have h1 : StableHlo.after (hostOps0 (F := Ideal)) W (Proc.devRef .tc main_v18)
      = shapeCast S100000x1 (val_main_v16 (F := Ideal) (W (Proc.devRef .tc main_arg1))) (by decide) := by
    dsimp only [hostOps0]; after_results; rfl
  rw [h1]; unfold val_main_v31; exact col_eq _ _ _

/-- Stretch 1 gathers the source rows of the first linear map's result and scatter-adds them into the destination rows,
    as the reference does with its own. -/
theorem s1_agg (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal))
    (hh : W (Proc.devRef .tc main_v19) = val_main_v20 (F := Ideal) x0 x1 x2) (hs : W (Proc.devRef .tc main_v1) = val_main_v1 (F := Ideal) x1) (hd : W (Proc.devRef .tc main_v3) = val_main_v3 (F := Ideal) x1) :
    StableHlo.after (hostOps1 (F := Ideal)) W (Proc.devRef .tc main_v29) = val_main_v30 (F := Ideal) x0 x1 x2 := by
  dsimp only [hostOps1]; after_results; rw [hh, hs, hd]; rfl
/-- Stretch 1 leaves the first bias, as a row, at the reference's row of it. -/
theorem s1_bias : StableHlo.after (hostOps1 (F := Ideal)) W (Proc.devRef .tc main_v30) = val_main_v34 (F := Ideal) (W (Proc.devRef .tc main_arg3)) := by
  have h1 : StableHlo.after (hostOps1 (F := Ideal)) W (Proc.devRef .tc main_v30) = shapeCast S1x128 (W (Proc.devRef .tc main_arg3) : S128.Idx → Elt Ideal .f32) (by decide) := by
    dsimp only [hostOps1]; after_results; rfl
  rw [h1]; unfold val_main_v34; exact row128_eq _ _ _
/-- Stretch 3 does the same gather and scatter-add with the second linear map's result. -/
theorem s3_agg (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal))
    (hh : W (Proc.devRef .tc main_v32) = val_main_v41 (F := Ideal) x0 x1 x2 x3 x4) (hs : W (Proc.devRef .tc main_v1) = val_main_v1 (F := Ideal) x1) (hd : W (Proc.devRef .tc main_v3) = val_main_v3 (F := Ideal) x1) :
    StableHlo.after (hostOps3 (F := Ideal)) W (Proc.devRef .tc main_v42) = val_main_v51 (F := Ideal) x0 x1 x2 x3 x4 := by
  dsimp only [hostOps3]; after_results; rw [hh, hs, hd]; rfl
/-- Stretch 3 leaves the second bias, as a row, at the reference's row of it. -/
theorem s3_bias : StableHlo.after (hostOps3 (F := Ideal)) W (Proc.devRef .tc main_v43) = val_main_v55 (F := Ideal) (W (Proc.devRef .tc main_arg5)) := by
  have h1 : StableHlo.after (hostOps3 (F := Ideal)) W (Proc.devRef .tc main_v43) = shapeCast S1x128 (W (Proc.devRef .tc main_arg5) : S128.Idx → Elt Ideal .f32) (by decide) := by
    dsimp only [hostOps3]; after_results; rfl
  rw [h1]; unfold val_main_v55; exact row128_eq _ _ _
/-- Stretch 4 leaves the classifier's bias, as a row, at the reference's row of it. -/
theorem s4_bias : StableHlo.after (hostOps4 (F := Ideal)) W (Proc.devRef .tc main_v45) = val_main_v59 (F := Ideal) (W (Proc.devRef .tc main_arg7)) := by
  have h1 : StableHlo.after (hostOps4 (F := Ideal)) W (Proc.devRef .tc main_v45) = shapeCast S1x40 (W (Proc.devRef .tc main_arg7) : S40.Idx → Elt Ideal .f32) (by decide) := by
    dsimp only [hostOps4]; after_results; rfl
  rw [h1]; unfold val_main_v59; exact row40_eq _ _ _

end Stretches

/-! ## The walk, boundary by boundary -/

section Walk

variable (m : (ℓ : Loc nD τ sig) → Buf (Elt Ideal) ℓ) (ρ : Dev nD → PrngReg) (c : Dev nD)

/-! ### After stretch 0: the first region's entry -/

theorem b1_arg0 : W1 m ρ c (Proc.devRef .tc main_arg0) = (m ((c : Thread nD τ).loc main_arg0)) := (by keep0 : StableHlo.after (hostOps0 (F := Ideal)) (W0 m ρ c) (Proc.devRef .tc main_arg0) = W0 m ρ c (Proc.devRef .tc main_arg0)).trans rfl
theorem b1_arg2 : W1 m ρ c (Proc.devRef .tc main_arg2) = (m ((c : Thread nD τ).loc main_arg2)) := (by keep0 : StableHlo.after (hostOps0 (F := Ideal)) (W0 m ρ c) (Proc.devRef .tc main_arg2) = W0 m ρ c (Proc.devRef .tc main_arg2)).trans rfl
theorem b1_arg3 : W1 m ρ c (Proc.devRef .tc main_arg3) = (m ((c : Thread nD τ).loc main_arg3)) := (by keep0 : StableHlo.after (hostOps0 (F := Ideal)) (W0 m ρ c) (Proc.devRef .tc main_arg3) = W0 m ρ c (Proc.devRef .tc main_arg3)).trans rfl
theorem b1_arg4 : W1 m ρ c (Proc.devRef .tc main_arg4) = (m ((c : Thread nD τ).loc main_arg4)) := (by keep0 : StableHlo.after (hostOps0 (F := Ideal)) (W0 m ρ c) (Proc.devRef .tc main_arg4) = W0 m ρ c (Proc.devRef .tc main_arg4)).trans rfl
theorem b1_arg5 : W1 m ρ c (Proc.devRef .tc main_arg5) = (m ((c : Thread nD τ).loc main_arg5)) := (by keep0 : StableHlo.after (hostOps0 (F := Ideal)) (W0 m ρ c) (Proc.devRef .tc main_arg5) = W0 m ρ c (Proc.devRef .tc main_arg5)).trans rfl
theorem b1_src : W1 m ρ c (Proc.devRef .tc main_v1) = val_main_v1 (F := Ideal) (m ((c : Thread nD τ).loc main_arg1)) := s0_src (W0 m ρ c)
theorem b1_dst : W1 m ρ c (Proc.devRef .tc main_v3) = val_main_v3 (F := Ideal) (m ((c : Thread nD τ).loc main_arg1)) := s0_dst (W0 m ρ c)
theorem b1_nout : W1 m ρ c (Proc.devRef .tc main_v16) = val_main_v17 (F := Ideal) (m ((c : Thread nD τ).loc main_arg1)) := s0_nout (W0 m ρ c)
theorem b1_nin : W1 m ρ c (Proc.devRef .tc main_v18) = val_main_v31 (F := Ideal) (m ((c : Thread nD τ).loc main_arg1)) := s0_nin (W0 m ρ c)

/-! ### After region 0 -/

theorem b2_arg3 : W2 m ρ c (Proc.devRef .tc main_arg3) = (m ((c : Thread nD τ).loc main_arg3)) := (W2_of_ne m ρ c main_arg3 (by decide)).trans (b1_arg3 m ρ c)
theorem b2_arg4 : W2 m ρ c (Proc.devRef .tc main_arg4) = (m ((c : Thread nD τ).loc main_arg4)) := (W2_of_ne m ρ c main_arg4 (by decide)).trans (b1_arg4 m ρ c)
theorem b2_arg5 : W2 m ρ c (Proc.devRef .tc main_arg5) = (m ((c : Thread nD τ).loc main_arg5)) := (W2_of_ne m ρ c main_arg5 (by decide)).trans (b1_arg5 m ρ c)
theorem b2_src : W2 m ρ c (Proc.devRef .tc main_v1) = val_main_v1 (F := Ideal) (m ((c : Thread nD τ).loc main_arg1)) := (W2_of_ne m ρ c main_v1 (by decide)).trans (b1_src m ρ c)
theorem b2_dst : W2 m ρ c (Proc.devRef .tc main_v3) = val_main_v3 (F := Ideal) (m ((c : Thread nD τ).loc main_arg1)) := (W2_of_ne m ρ c main_v3 (by decide)).trans (b1_dst m ρ c)
theorem b2_nin : W2 m ρ c (Proc.devRef .tc main_v18) = val_main_v31 (F := Ideal) (m ((c : Thread nD τ).loc main_arg1)) := (W2_of_ne m ρ c main_v18 (by decide)).trans (b1_nin m ρ c)
/-- The factor column is one of the region's inputs: an input array is never written. -/
theorem b2_nout : W2 m ρ c (Proc.devRef .tc main_v16) = val_main_v17 (F := Ideal) (m ((c : Thread nD τ).loc main_arg1)) :=
  ((W2_arr m ρ c 1).trans (((dat0 (V1 m ρ) c).arrAt_in 1 rfl _).trans (A_eq0 (V1 m ρ) c 1))).trans (b1_nout m ρ c)
/-- The first linear map's result is the reference's. -/
theorem b2_h : W2 m ρ c (Proc.devRef .tc main_v19) = val_main_v20 (F := Ideal) (m ((c : Thread nD τ).loc main_arg0)) (m ((c : Thread nD τ).loc main_arg1)) (m ((c : Thread nD τ).loc main_arg2)) :=
  (W2_arr m ρ c 3).trans ((Region0.final (V1 m ρ) c).trans (by
    show scaleLinear (W1 m ρ c (Proc.devRef .tc main_arg0)) (W1 m ρ c (Proc.devRef .tc main_v16)) (W1 m ρ c (Proc.devRef .tc main_arg2)) = _
    rw [b1_arg0, b1_nout, b1_arg2]
    exact (Cert.ReferenceIdeal.Layers.layer0 _ _ _).symm))

/-! ### After stretch 1: the second region's entry -/

theorem b3_arg4 : W3 m ρ c (Proc.devRef .tc main_arg4) = (m ((c : Thread nD τ).loc main_arg4)) := (by keep1 : StableHlo.after (hostOps1 (F := Ideal)) (W2 m ρ c) (Proc.devRef .tc main_arg4) = W2 m ρ c (Proc.devRef .tc main_arg4)).trans (b2_arg4 m ρ c)
theorem b3_arg5 : W3 m ρ c (Proc.devRef .tc main_arg5) = (m ((c : Thread nD τ).loc main_arg5)) := (by keep1 : StableHlo.after (hostOps1 (F := Ideal)) (W2 m ρ c) (Proc.devRef .tc main_arg5) = W2 m ρ c (Proc.devRef .tc main_arg5)).trans (b2_arg5 m ρ c)
theorem b3_src : W3 m ρ c (Proc.devRef .tc main_v1) = val_main_v1 (F := Ideal) (m ((c : Thread nD τ).loc main_arg1)) := (by keep1 : StableHlo.after (hostOps1 (F := Ideal)) (W2 m ρ c) (Proc.devRef .tc main_v1) = W2 m ρ c (Proc.devRef .tc main_v1)).trans (b2_src m ρ c)
theorem b3_dst : W3 m ρ c (Proc.devRef .tc main_v3) = val_main_v3 (F := Ideal) (m ((c : Thread nD τ).loc main_arg1)) := (by keep1 : StableHlo.after (hostOps1 (F := Ideal)) (W2 m ρ c) (Proc.devRef .tc main_v3) = W2 m ρ c (Proc.devRef .tc main_v3)).trans (b2_dst m ρ c)
theorem b3_nout : W3 m ρ c (Proc.devRef .tc main_v16) = val_main_v17 (F := Ideal) (m ((c : Thread nD τ).loc main_arg1)) := (by keep1 : StableHlo.after (hostOps1 (F := Ideal)) (W2 m ρ c) (Proc.devRef .tc main_v16) = W2 m ρ c (Proc.devRef .tc main_v16)).trans (b2_nout m ρ c)
theorem b3_nin : W3 m ρ c (Proc.devRef .tc main_v18) = val_main_v31 (F := Ideal) (m ((c : Thread nD τ).loc main_arg1)) := (by keep1 : StableHlo.after (hostOps1 (F := Ideal)) (W2 m ρ c) (Proc.devRef .tc main_v18) = W2 m ρ c (Proc.devRef .tc main_v18)).trans (b2_nin m ρ c)
/-- The first layer's aggregated messages are the reference's. -/
theorem b3_agg : W3 m ρ c (Proc.devRef .tc main_v29) = val_main_v30 (F := Ideal) (m ((c : Thread nD τ).loc main_arg0)) (m ((c : Thread nD τ).loc main_arg1)) (m ((c : Thread nD τ).loc main_arg2)) :=
  s1_agg (W2 m ρ c) (m ((c : Thread nD τ).loc main_arg0)) (m ((c : Thread nD τ).loc main_arg1)) (m ((c : Thread nD τ).loc main_arg2)) (b2_h m ρ c) (b2_src m ρ c) (b2_dst m ρ c)
theorem b3_bias : W3 m ρ c (Proc.devRef .tc main_v30) = val_main_v34 (F := Ideal) (m ((c : Thread nD τ).loc main_arg3)) :=
  (s1_bias (W2 m ρ c)).trans (congrArg (val_main_v34 (F := Ideal)) (b2_arg3 m ρ c))

/-! ### After region 1 -/

theorem b4_arg4 : W4 m ρ c (Proc.devRef .tc main_arg4) = (m ((c : Thread nD τ).loc main_arg4)) := (W4_of_ne m ρ c main_arg4 (by decide)).trans (b3_arg4 m ρ c)
theorem b4_arg5 : W4 m ρ c (Proc.devRef .tc main_arg5) = (m ((c : Thread nD τ).loc main_arg5)) := (W4_of_ne m ρ c main_arg5 (by decide)).trans (b3_arg5 m ρ c)
theorem b4_src : W4 m ρ c (Proc.devRef .tc main_v1) = val_main_v1 (F := Ideal) (m ((c : Thread nD τ).loc main_arg1)) := (W4_of_ne m ρ c main_v1 (by decide)).trans (b3_src m ρ c)
theorem b4_dst : W4 m ρ c (Proc.devRef .tc main_v3) = val_main_v3 (F := Ideal) (m ((c : Thread nD τ).loc main_arg1)) := (W4_of_ne m ρ c main_v3 (by decide)).trans (b3_dst m ρ c)
theorem b4_nout : W4 m ρ c (Proc.devRef .tc main_v16) = val_main_v17 (F := Ideal) (m ((c : Thread nD τ).loc main_arg1)) := (W4_of_ne m ρ c main_v16 (by decide)).trans (b3_nout m ρ c)
theorem b4_nin : W4 m ρ c (Proc.devRef .tc main_v18) = val_main_v31 (F := Ideal) (m ((c : Thread nD τ).loc main_arg1)) :=
  ((W4_arr m ρ c 1).trans (((dat1 (V3 m ρ) c).arrAt_in 1 rfl _).trans (A_eq1 (V3 m ρ) c 1))).trans (b3_nin m ρ c)
/-- The first layer's output is the reference's. -/
theorem b4_h : W4 m ρ c (Proc.devRef .tc main_v31) = val_main_v37 (F := Ideal) (m ((c : Thread nD τ).loc main_arg0)) (m ((c : Thread nD τ).loc main_arg1)) (m ((c : Thread nD τ).loc main_arg2)) (m ((c : Thread nD τ).loc main_arg3)) :=
  (W4_arr m ρ c 3).trans ((Region1.final (V3 m ρ) c).trans (by
    show scaleBiasRelu (W3 m ρ c (Proc.devRef .tc main_v29)) (W3 m ρ c (Proc.devRef .tc main_v18)) (W3 m ρ c (Proc.devRef .tc main_v30)) = _
    rw [b3_agg, b3_nin, b3_bias]
    exact (Cert.ReferenceIdeal.Layers.layer1 _ _ _ _).symm))

/-! ### After region 2 -/

theorem b5_arg5 : W5 m ρ c (Proc.devRef .tc main_arg5) = (m ((c : Thread nD τ).loc main_arg5)) := (W5_of_ne m ρ c main_arg5 (by decide)).trans (b4_arg5 m ρ c)
theorem b5_src : W5 m ρ c (Proc.devRef .tc main_v1) = val_main_v1 (F := Ideal) (m ((c : Thread nD τ).loc main_arg1)) := (W5_of_ne m ρ c main_v1 (by decide)).trans (b4_src m ρ c)
theorem b5_dst : W5 m ρ c (Proc.devRef .tc main_v3) = val_main_v3 (F := Ideal) (m ((c : Thread nD τ).loc main_arg1)) := (W5_of_ne m ρ c main_v3 (by decide)).trans (b4_dst m ρ c)
theorem b5_nin : W5 m ρ c (Proc.devRef .tc main_v18) = val_main_v31 (F := Ideal) (m ((c : Thread nD τ).loc main_arg1)) := (W5_of_ne m ρ c main_v18 (by decide)).trans (b4_nin m ρ c)
/-- The second linear map's result is the reference's (its factor column is the reference's second copy of the same column). -/
theorem b5_h : W5 m ρ c (Proc.devRef .tc main_v32) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 3).trans ((Region2.final (V4 m ρ) c).trans (by
    show scaleLinear (W4 m ρ c (Proc.devRef .tc main_v31)) (W4 m ρ c (Proc.devRef .tc main_v16)) (W4 m ρ c (Proc.devRef .tc main_arg4)) = _
    rw [b4_h, b4_nout, b4_arg4]
    exact (Cert.ReferenceIdeal.Layers.layer2 _ _ _ _ _).symm))

/-! ### After stretch 3: the fourth region's entry -/

theorem b6_nin : W6 m ρ c (Proc.devRef .tc main_v18) = val_main_v31 (F := Ideal) (m ((c : Thread nD τ).loc main_arg1)) := (by keep3 : StableHlo.after (hostOps3 (F := Ideal)) (W5 m ρ c) (Proc.devRef .tc main_v18) = W5 m ρ c (Proc.devRef .tc main_v18)).trans (b5_nin m ρ c)
/-- The second layer's aggregated messages are the reference's. -/
theorem b6_agg : W6 m ρ c (Proc.devRef .tc main_v42) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  s3_agg (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (b5_h m ρ c) (b5_src m ρ c) (b5_dst m ρ c)
theorem b6_bias : W6 m ρ c (Proc.devRef .tc main_v43) = val_main_v55 (F := Ideal) (m ((c : Thread nD τ).loc main_arg5)) :=
  (s3_bias (W5 m ρ c)).trans (congrArg (val_main_v55 (F := Ideal)) (b5_arg5 m ρ c))

/-! ### After region 3 -/

/-- The second layer's output is the reference's (its factor column is the reference's second copy of the same column). -/
theorem b7_h : W7 m ρ c (Proc.devRef .tc main_v44) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 3).trans ((Region3.final (V6 m ρ) c).trans (by
    show scaleBias (W6 m ρ c (Proc.devRef .tc main_v42)) (W6 m ρ c (Proc.devRef .tc main_v18)) (W6 m ρ c (Proc.devRef .tc main_v43)) = _
    rw [b6_agg, b6_nin, b6_bias]
    exact (Cert.ReferenceIdeal.Layers.layer3 _ _ _ _ _ _).symm))
/-- The classifier's bias is never written: from here to the return it holds what the run ends with, the launch contents. -/
theorem b7_arg7 : W7 m ρ c (Proc.devRef .tc main_arg7) = (m ((c : Thread nD τ).loc main_arg7)) :=
  ((W9_of_ne m ρ c main_arg7 (by decide)).trans (by keep4 : StableHlo.after (hostOps4 (F := Ideal)) (W7 m ρ c) (Proc.devRef .tc main_arg7) = W7 m ρ c (Proc.devRef .tc main_arg7))).symm.trans (W9_main_arg7 m ρ c)

/-! ### After stretch 4: the last region's entry -/

theorem b8_h : W8 m ρ c (Proc.devRef .tc main_v44) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (by keep4 : StableHlo.after (hostOps4 (F := Ideal)) (W7 m ρ c) (Proc.devRef .tc main_v44) = W7 m ρ c (Proc.devRef .tc main_v44)).trans (b7_h m ρ c)
theorem b8_bias : W8 m ρ c (Proc.devRef .tc main_v45) = val_main_v59 (F := Ideal) (m ((c : Thread nD τ).loc main_arg7)) :=
  (s4_bias (W7 m ρ c)).trans (congrArg (val_main_v59 (F := Ideal)) (b7_arg7 m ρ c))
/-- The classifier matrix is one of the last region's inputs, never written, and ends as launched. -/
theorem b8_w : W8 m ρ c (Proc.devRef .tc main_arg6) = (m ((c : Thread nD τ).loc main_arg6)) :=
  ((W9_arr m ρ c 1).trans (((dat4 (V8 m ρ) c).arrAt_in 1 rfl _).trans (A_eq4 (V8 m ρ) c 1))).symm.trans (W9_main_arg6 m ρ c)

/-! ### The return -/

/-- The kernel program's result buffer ends holding the reference's result of the launch arrays. -/
theorem result : W9 m ρ c (Proc.devRef .tc main_v46) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 3).trans ((Region4.final (V8 m ρ) c).trans (by
    show linearBias (W8 m ρ c (Proc.devRef .tc main_v44)) (W8 m ρ c (Proc.devRef .tc main_arg6)) (W8 m ρ c (Proc.devRef .tc main_v45)) = _
    rw [b8_h, b8_w, b8_bias]
    exact (Cert.ReferenceIdeal.Layers.layer4 _ _ _ _ _ _ _ _).symm))

end Walk

end Cert.KernelIdeal.Chain

end
-- ==== Proof.lean ====
/-
  A two-layer graph convolution with a final classifier, as five Pallas calls among host gathers and scatter-adds, against
  its jnp reference, over the extended reals.

  Both programs compute, with D_out and D_in the clamped node degrees read off the edge list,
      h₁ = max (D_in^(-1/2) · A · (D_out^(-1/2) · x) · W₁ + b₁) 0,   h₂ = D_in^(-1/2) · A · (D_out^(-1/2) · h₁) · W₂ + b₂,
      out = h₂ · W_fc + b_fc,
  where A · is "gather the source rows, scatter-add into the destination rows". The kernel program does the three dense
  steps of each layer in blocks of 5000 nodes (with a change of float format that is the identity over the reals, and
  matrix products into a zero accumulator) and leaves the degree counts, the gathers and the scatter-adds to the very host
  operations the reference uses. No sum is regrouped and no factor moved, so no law of the extended reals beyond reading
  the operations index by index is needed, and the precondition (finite inputs) is never opened.

  * Proof/Spec.lean          the four whole-array functions of one layer's dense steps
  * Proof/Payloads.lean      each kernel body on one block, read at an entry
  * Proof/Region0 … Region4  each region's result array is its function of the arrays it reads
  * Proof/RefStages.lean     each of the reference's layers is the same function of its values
  * Proof/KernelRunNamed     the kernel program's run with its result buffer named
  * Proof/KernelChain.lean   the walk from the launch to the return: the result buffer holds the reference's result
-/
import proofs.«152073_j87892210745352_1_alg».proof.Defs
import proofs.«152073_j87892210745352_1_alg».proof.Proof.Gen.Kernel
import proofs.«152073_j87892210745352_1_alg».proof.Proof.Gen.Kernel.Frame
import proofs.«152073_j87892210745352_1_alg».proof.Proof.Gen.KernelIdeal
import proofs.«152073_j87892210745352_1_alg».proof.Proof.Gen.KernelIdeal.Frame
import proofs.«152073_j87892210745352_1_alg».proof.Proof.Gen.ReferenceIdeal
import proofs.«152073_j87892210745352_1_alg».proof.Proof.Gen.ReferenceIdeal.Run
import proofs.«152073_j87892210745352_1_alg».proof.Proof.Gen.ReferenceIdeal.Read
import proofs.«152073_j87892210745352_1_alg».proof.Proof.Gen.Pre_finite_inputs
import proofs.«152073_j87892210745352_1_alg».proof.Proof.KernelRunNamed
import proofs.«152073_j87892210745352_1_alg».proof.Proof.KernelChain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the kernel program's result buffer ends holding the
    reference's result: the reference's term of the launch arrays, which agree. -/
theorem algebraic : Cert.algebraic_KernelIdeal_ReferenceIdeal := by
  intro m ρ m' ρ' _ hagree
  refine ⟨fun c => Cert.KernelIdeal.Gen.W9 m ρ c (Proc.devRef .tc Cert.KernelIdeal.main_v46), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show Cert.ReferenceIdeal.Value.res_main_v61 m' c = Cert.KernelIdeal.Gen.W9 m ρ c (Proc.devRef .tc Cert.KernelIdeal.main_v46)
  rw [Cert.ReferenceIdeal.Read.val_main_v61_eq, Cert.KernelIdeal.Chain.result m ρ c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
